-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x1024 : Shape := ⟨2, ![16384, 1024]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x2048x4096 .f32) (main_arg1 : IVec S16384x1024 32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S16384x1024 32 := broadcastInDim S16384x1024 ![] bcast_S_S16384x1024 main_c_2
  let main_v10 : IVec S16384x1024 1 := cmpi .sge main_arg1 main_v9
  let main_c_3 : IVec S_ 1 := constantI S_ 1 1#1
  let main_v11 : IVec S_ 1 := (fun x v => Host.reduce IntOp.andi x v reducesTo_S16384x1024_S_d0_1 h_S_) main_v10 main_c_3
  let main_v12 : IVec S_ 1 := andi main_v8 main_v11
  let main_c_4 : IVec S_ 32 := constantI S_ 32 16#32
  let main_v13 : IVec S16384x1024 32 := broadcastInDim S16384x1024 ![] bcast_S_S16384x1024 main_c_4
  let main_v14 : IVec S16384x1024 1 := cmpi .slt main_arg1 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_v12 main_v15
-- ==== Kernel.lean ====
abbrev S4x2048x4096 : Shape := ⟨3, ![4, 2048, 4096]⟩
abbrev S16384x1024 : Shape := ⟨2, ![16384, 1024]⟩
abbrev S16384 : Shape := ⟨1, ![16384]⟩
abbrev S16384x1 : Shape := ⟨2, ![16384, 1]⟩
abbrev S1024x1024 : Shape := ⟨2, ![1024, 1024]⟩
abbrev S1024x1 : Shape := ⟨2, ![1024, 1]⟩
abbrev S4096x4096 : Shape := ⟨2, ![4096, 4096]⟩
abbrev S8192x4096 : Shape := ⟨2, ![8192, 4096]⟩
abbrev S256x4096 : Shape := ⟨2, ![256, 4096]⟩
abbrev S2048x4096 : Shape := ⟨2, ![2048, 4096]⟩
abbrev S256x2048 : Shape := ⟨2, ![256, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x1024, .i32⟩
  | .hbm, ⟨2, _⟩ => ⟨S16384, .f32⟩
  | .hbm, ⟨3, _⟩ => ⟨S16384x1, .f32⟩
  | .hbm, ⟨4, _⟩ => ⟨S16384x1024, .bf16⟩
  | .hbm, ⟨5, _⟩ => ⟨S4096x4096, .bf16⟩
  | .hbm, ⟨6, _⟩ => ⟨S8192x4096, .f32⟩
  | .hbm, ⟨7, _⟩ => ⟨S8192x4096, .f32⟩
  | .hbm, ⟨8, _⟩ => ⟨S4x2048x4096, .f32⟩
  | .local _ .vmem, ⟨0, _⟩ => ⟨S1024x1024, .i32⟩
  | .local _ .vmem, ⟨1, _⟩ => ⟨S1024x1024, .i32⟩
  | .local _ .vmem, ⟨2, _⟩ => ⟨S1024x1, .f32⟩
  | .local _ .vmem, ⟨3, _⟩ => ⟨S1024x1, .f32⟩
  | .local _ .vmem, ⟨4, _⟩ => ⟨S1024x1024, .bf16⟩
  | .local _ .vmem, ⟨5, _⟩ => ⟨S1024x1024, .bf16⟩
  | .local _ .vmem, ⟨6, _⟩ => ⟨S256x4096, .f32⟩
  | .local _ .vmem, ⟨7, _⟩ => ⟨S256x4096, .f32⟩
  | .local _ .vmem, ⟨8, _⟩ => ⟨S2048x4096, .bf16⟩
  | .local _ .vmem, ⟨9, _⟩ => ⟨S2048x4096, .bf16⟩
  | .local _ .vmem, ⟨10, _⟩ => ⟨S256x2048, .f32⟩
  | .local _ .vmem, ⟨11, _⟩ => ⟨S256x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S16384x1024_S4096x4096 : S16384x1024.ShapeCasts S4096x4096
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x2048_S256x2048_0_0 : ∀ a, (![0, 0] : Fin 2 → Nat) a + S256x2048.size a ≤ S256x2048.size a
  h_S256x2048 : 0 < S256x2048.numel
  shapeCasts_S8192x4096_S4x2048x4096 : S8192x4096.ShapeCasts S4x2048x4096
  dot_S256x4096_S2048x4096_S256x2048_1_1_0_0_n_n_wf : DotDims.WF S256x4096 S2048x4096 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .i32 = 32 ∨ (Rect.block (s := S16384x1024) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .bf16 = 32 ∨ (Rect.block (s := S16384x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S4096x4096.size a
  hwx1_1 : ∀ i : grid1.Coords, EltTy.bits .bf16 = 32 ∨ (Rect.block (s := S4096x4096) S2048x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x4096.size a
  hwx1_2 : ∀ i : grid1.Coords, EltTy.bits .f32 = 32 ∨ (Rect.block (s := S8192x4096) S256x2048.size (cc1_transform_2 i) (hinb1_2 i)).WholeWords (EltTy.packing .f32)

variable [Facts₀]

def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x1024 : Shape := ⟨2, ![16384, 1024]⟩
abbrev S16384 : Shape := ⟨1, ![16384]⟩
abbrev S16 : Shape := ⟨1, ![16]⟩
abbrev S_ : Shape := ⟨0, ![]⟩
abbrev S16384x1024x1 : Shape := ⟨3, ![16384, 1024, 1]⟩
abbrev S16384x1 : Shape := ⟨2, ![16384, 1]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x1024, .i32⟩
  | .hbm, ⟨2, _⟩ => ⟨S16384, .f32⟩
  | .hbm, ⟨3, _⟩ => ⟨S16, .f32⟩
  | .hbm, ⟨4, _⟩ => ⟨S_, .i32⟩
  | .hbm, ⟨5, _⟩ => ⟨S16384x1024, .i32⟩
  | .hbm, ⟨6, _⟩ => ⟨S16384x1024, .i1⟩
  | .hbm, ⟨7, _⟩ => ⟨S_, .i32⟩
  | .hbm, ⟨8, _⟩ => ⟨S16384x1024, .i32⟩
  | .hbm, ⟨9, _⟩ => ⟨S16384x1024, .i32⟩
  | .hbm, ⟨10, _⟩ => ⟨S16384x1024, .i32⟩
  | .hbm, ⟨11, _⟩ => ⟨S16384x1024x1, .i32⟩
  | .hbm, ⟨12, _⟩ => ⟨S16384x1024, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S4096x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  shapeCasts_S16384x1024_S4096x4096 : S16384x1024.ShapeCasts S4096x4096
  gather_S16_S16384x1024x1_S16384x1024_n_0_n_n_0_2_1_wf : GatherDims.WF S16 S16384x1024x1 S16384x1024 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S16_S16384x1024x1_S16384x1024_n_0_n_n_0_2_1 : GatherDims S16 S16384x1024x1 S16384x1024 where
  offsetDims := []
  collapsedSliceDims := [0]
  operandBatchingDims := []
  startIndicesBatchingDims := []
  startIndexMap := [0]
  indexVectorDim := 2
  sliceSizes := ![1]
  wf := gather_S16_S16384x1024x1_S16384x1024_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, stated once over the argument arrays.

  A code `q` in 0..15 denotes one of sixteen fixed levels (the NF4 table); block row `p` of the codes carries one
  scale `sc p`; the dequantised entry at (p, k) is `level (idx (p, k)) * sc p`.  The [16384, 1024] array of those
  entries, re-read row-major as a [4096, 4096] matrix, is the weight `W`, and the result is `y[b, s, o] = ∑ k, x[b, s, k] * W[o, k]`.
  Everything is over the extended reals: a float is the exact value of its word.
-/
import Idealize.ShloMosaic.PureOps.Ideal
import Idealize.ShloMosaic.Lib.ValueIdx

noncomputable section

namespace Cert.Nf4

open Idealize.ShloMosaic Idealize.ShloMosaic.ValueIdx

/-- The codes, and the dequantised entries: 16384 blocks of 1024. -/
abbrev SQ : Shape := ⟨2, ![16384, 1024]⟩
/-- One scale per block. -/
abbrev SS : Shape := ⟨1, ![16384]⟩
/-- The weight matrix, [out, in]. -/
abbrev SW : Shape := ⟨2, ![4096, 4096]⟩
/-- The activations and the result, [batch, seq, feature]. -/
abbrev SX : Shape := ⟨3, ![4, 2048, 4096]⟩

/-- The sixteen levels as f32 words, by code. -/
def levelWord : Fin 16 → BitVec 32 := fun
  | 0 => 0xBF800000#32 | 1 => 0xBF323A2A#32 | 2 => 0xBF066CF4#32 | 3 => 0xBECA3055#32
  | 4 => 0xBE919CE0#32 | 5 => 0xBE3D3C36#32 | 6 => 0xBDBA92A3#32 | 7 => 0x00000000#32
  | 8 => 0x3DA30553#32 | 9 => 0x3E24C2F8#32 | 10 => 0x3E7C01A3#32 | 11 => 0x3EAD013B#32
  | 12 => 0x3EE1A36E#32 | 13 => 0x3F10068E#32 | 14 => 0x3F391687#32 | 15 => 0x3F800000#32
  | _ => 0#32

/-- The level a code denotes: the exact value of its word (the code read modulo 16; only codes 0..15 are ever used). -/
def level (q : BitVec 32) : EReal := Ideal.ofBits .f32 (levelWord (Fin.ofNat 16 q.toNat))

/-- The dequantised entry at (p, k): the code's level times block p's scale. -/
def deq (idx : SQ.Idx → BitVec 32) (sc : SS.Idx → EReal) : SQ.Idx → EReal :=
  fun j => level (idx j) * sc (ix1 (j 0))

/-- The weight matrix: the dequantised entries re-read row-major as [4096, 4096]. -/
def weight (idx : SQ.Idx → BitVec 32) (sc : SS.Idx → EReal) : SW.Idx → EReal :=
  shapeCast SW (deq idx sc) (by decide)

/-- The result: each activation row against each weight row, summed over the 4096 input features. -/
def result (x : SX.Idx → EReal) (idx : SQ.Idx → BitVec 32) (sc : SS.Idx → EReal) : SX.Idx → EReal :=
  fun i => ∑ k : Fin 4096, x (ix3 (i 0) (i 1) k) * weight idx sc (ix2 (i 2) k)

/-- The activations as 8192 rows of 4096 features. -/
abbrev SX2 : Shape := ⟨2, ![8192, 4096]⟩
/-- The scales kept as a column, one row per block. -/
abbrev SC : Shape := ⟨2, ![16384, 1]⟩

/-- The dequantised entries over a scale COLUMN: the code's level times the scale in row p of the column. -/
def deqCol (idx : SQ.Idx → BitVec 32) (s : SC.Idx → EReal) : SQ.Idx → EReal :=
  fun j => level (idx j) * s (ix2 (j 0) (0 : Fin 1))

/-- Rows against rows: entry (r, o) is the sum over the 4096 features of row r of `a` against row o of `b`. -/
def rowsDot (a : SX2.Idx → EReal) (b : SW.Idx → EReal) : SX2.Idx → EReal :=
  fun i => ∑ k : Fin 4096, a (ix2 (i 0) k) * b (ix2 (i 1) k)

/-- A code is in range when, read signed, it lies in 0..15. -/
def InRange (idx : SQ.Idx → BitVec 32) : Prop := ∀ j, 0 ≤ (idx j).toInt ∧ (idx j).toInt < 16

end Cert.Nf4

end
-- ==== Proof.Region0.lean ====
/-
  What the dequantisation call leaves in its output array, whatever the buffers hold when it is entered.
-/
import proofs.«427601_j31095563223127_3_alg».proof.Proof.Gen.KernelIdeal.Frame
import proofs.«427601_j31095563223127_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## One element: the clamp, the fifteen compare-and-select steps, the level -/

/-- A code clamped into 0..15: at least 0, then at most 15, both read signed. -/
def clampCode (q : BitVec 32) : BitVec 32 := IntOp.minsi 15#32 (IntOp.maxsi 0#32 q)

/-- One compare-and-select step: if the clamped code `c` is `j`, the value of the word `w`; else what was there. -/
def step (c : BitVec 32) (j : BitVec 32) (w : BitVec 32) (r : EReal) : EReal :=
  Scalar.select (IntOp.cmpi .eq c j) (Ideal.ofBits .f32 w) r

/-- The choice among sixteen values as the body spells it: start from the value of code 0 and, for j = 1, …, 15 in
    turn, replace it by the value of code j where the clamped code is j. -/
def chain (q : BitVec 32) : EReal :=
  let c := clampCode q
  step c 15#32 0x3F800000#32 <| step c 14#32 0x3F391687#32 <| step c 13#32 0x3F10068E#32 <| step c 12#32 0x3EE1A36E#32 <|
  step c 11#32 0x3EAD013B#32 <| step c 10#32 0x3E7C01A3#32 <| step c 9#32 0x3E24C2F8#32 <| step c 8#32 0x3DA30553#32 <|
  step c 7#32 0x00000000#32 <| step c 6#32 0xBDBA92A3#32 <| step c 5#32 0xBE3D3C36#32 <| step c 4#32 0xBE919CE0#32 <|
  step c 3#32 0xBECA3055#32 <| step c 2#32 0xBF066CF4#32 <| step c 1#32 0xBF323A2A#32 <| Ideal.ofBits .f32 0xBF800000#32

/-- A word that, read signed, lies in 0..15 is one of the sixteen words 0, …, 15. -/
theorem code_cases (q : BitVec 32) (h0 : 0 ≤ q.toInt) (h1 : q.toInt < 16) : ∃ n : Fin 16, q = BitVec.ofNat 32 n.val := by
  have hn : q.toNat < 16 := by
    have hlt := q.isLt
    rw [BitVec.toInt_eq_toNat_cond] at h0 h1
    split at h0 <;> omega
  exact ⟨⟨q.toNat, hn⟩, BitVec.eq_of_toNat_eq (by rw [BitVec.toNat_ofNat]; exact (Nat.mod_eq_of_lt q.isLt).symm)⟩

/-- On a code in range the clamp changes nothing, exactly one comparison succeeds (none for code 0, which keeps the
    starting value), and the value chosen is the code's level: sixteen cases, each by evaluation. -/
theorem chain_eq_level (q : BitVec 32) (h0 : 0 ≤ q.toInt) (h1 : q.toInt < 16) : chain q = Cert.Nf4.level q := by
  obtain ⟨n, rfl⟩ := code_cases q h0 h1
  fin_cases n <;> rfl

/-! ## The payload at an index of the block -/

/-- The two zero offsets are the zero function. -/
theorem zeros2 : (![0, 0] : Fin 2 → Nat) = fun _ => 0 := funext fun a => by fin_cases a <;> rfl

/-- The stored value at (r, k) of the block: the choice at the code there, times the scale column spread along the row. -/
theorem pay_core (x0 : Vec Ideal S1024x1024 .i32) (x1 : Vec Ideal S1024x1 .f32) (j : S1024x1024.Idx) :
    k0_pay1 (k0_pay2 x0) (k0_pay3 x0) x1 j
      = chain (x0 j) * broadcastTo S1024x1024 (shapeCast S1024x1 x1 shapeCasts_S1024x1_S1024x1) broadcasts_S1024x1_S1024x1024 j := rfl

/-- The scale column spread along the row reads, at (r, k), the column's entry in row r. -/
theorem scaleRow_apply (x1 : Vec Ideal S1024x1 .f32) (j : S1024x1024.Idx) :
    broadcastTo S1024x1024 (shapeCast S1024x1 x1 shapeCasts_S1024x1_S1024x1) broadcasts_S1024x1_S1024x1024 j
      = x1 (ix2 (j 0) (0 : Fin 1)) := by
  rw [shapeCast_self]
  exact broadcastTo_apply x1 _ j (ix2 (j 0) (0 : Fin 1)) fun a => by
    match a with
    | ⟨0, _⟩ => rfl
    | ⟨1, _⟩ => rfl

/-- So, where the code is in range, the stored value at (r, k) is the code's level times the scale of row r. -/
theorem pay_apply (x0 : Vec Ideal S1024x1024 .i32) (x1 : Vec Ideal S1024x1 .f32) (j : S1024x1024.Idx)
    (h0 : 0 ≤ (x0 j).toInt) (h1 : (x0 j).toInt < 16) :
    k0_pay1 (k0_pay2 x0) (k0_pay3 x0) x1 j = Cert.Nf4.level (x0 j) * x1 (ix2 (j 0) (0 : Fin 1)) := by
  rw [pay_core, scaleRow_apply, chain_eq_level _ h0 h1]

/-! ## From the blocks to the array -/

/-- The three index maps, decided over the sixteen grid points: at point t every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the array of levels times row scales. -/
theorem flushed_eq (c : Dev nD) (hr : Cert.Nf4.InRange (V c main_arg1 : S16384x1024.Idx → BitVec 32)) (t : Fin cfg0.N) :
    (dat0 (F := Ideal) V c).flushed 2 t
      = ((cfg0.win 2).blk t).view.read (Elt Ideal) (Cert.Nf4.deqCol (V c main_arg1) (V c main_v0)) := by
  show (cfg0.win 2).cut (grid0.coords t) ((dat0 V c).after 2 t) = _
  rw [after0_2]
  unfold out0_2
  rw [View.canon_unit_zero zeros2]
  simp only [View.ld_unit_zero (S := S1024x1024) zeros2, View.ld_unit_zero (S := S1024x1) zeros2]
  obtain ⟨e0, e1, e2, e3, e4, e5⟩ := idx_facts t
  refine funext fun (j : S1024x1024.Idx) => ?_
  -- the code read at (r, k) of block t sits at (1024 t + r, k) of the codes, where the output's element sits
  have hcode : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * (j 1).val = win0_2.index t (1 : Fin 2) * 1024 + 1 * (j 1).val; omega
  -- the scale read at (r, 0) of block t sits at (1024 t + r, 0) of the column: the row of the output's element
  have hscale : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 1 + 1 * 0 = 0; omega
  have hq := hr (((cfg0.win 2).blk t).view.emb j)
  show k0_pay1 (k0_pay2 (iblk0 V c 0 t)) (k0_pay3 (iblk0 V c 0 t)) (iblk0 V c 1 t) j
      = Cert.Nf4.level (V c main_arg1 (((cfg0.win 2).blk t).view.emb j)) * V c main_v0 (ix2 ((((cfg0.win 2).blk t).view.emb j) 0) (0 : Fin 1))
  have hb0 : iblk0 V c 0 t j = V c main_arg1 (((cfg0.win 2).blk t).view.emb j) := by
    show V c main_arg1 (((cfg0.win 0).blk t).view.emb j) = _
    rw [hcode]
  have hb1 : iblk0 V c 1 t (ix2 (j 0) (0 : Fin 1)) = V c main_v0 (ix2 ((((cfg0.win 2).blk t).view.emb j) 0) (0 : Fin 1)) := by
    show V c main_v0 (((cfg0.win 1).blk t).view.emb (ix2 (j 0) (0 : Fin 1))) = _
    rw [hscale]
    rfl
  refine (pay_apply (iblk0 V c 0 t) (iblk0 V c 1 t) j (hb0 ▸ hq.1) (hb0 ▸ hq.2)).trans ?_
  rw [hb0, hb1]

/-- An index of the output array is in point t's block iff each coordinate is in the block's range on its axis. -/
theorem mem_blk (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every index of the output array is in some point's block: row p is in the block of point p / 1024. -/
theorem cover (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, by show (i 0).val / 1024 < 16; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the sixteen grid points the output array holds, at (p, k), the level of the code at (p, k) times the scale in
    row p of the scale column — provided every code is in range. -/
theorem final (c : Dev nD) (hr : Cert.Nf4.InRange (V c main_arg1 : S16384x1024.Idx → BitVec 32)) :
    (dat0 (F := Ideal) V c).arrAt 2 cfg0.N = Cert.Nf4.deqCol (V c main_arg1) (V c main_v0) :=
  (dat0 (F := Ideal) V c).arrAt_eq_of_cover 2 _ (fun t _ => flushed_eq V c hr t) cover

end Cert.KernelIdeal.Region0

end
-- ==== Proof.Region1.lean ====
/-
  What the matrix-product call leaves in its output array, whatever the buffers hold when it is entered.

  The call's grid is 2 × 32; at the point with coordinates (j, i) the body multiplies rows 256·i … 256·i + 255 of the
  activations against rows 2048·j … 2048·j + 2047 of the weight, over all 4096 features, and the result is written back
  as block (i, j) of the [8192, 4096] output. First the product of two blocks at an index (the contraction's operand
  indices axis by axis, the contraction index as a number below 4096); then each written block as a block of ONE
  function of the two arrays; then the 64 blocks tile the output, so the array ends holding that function.
-/
import proofs.«427601_j31095563223127_3_alg».proof.Proof.Gen.KernelIdeal.Frame
import proofs.«427601_j31095563223127_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The contraction's operand indices, axis by axis -/

/-- The left operand is read at the output's row … -/
theorem lhs_row (j : S256x2048.Idx) (k : dot_S256x4096_S2048x4096_S256x2048_1_1_0_0_n_n.contr.Idx) :
    (dot_S256x4096_S2048x4096_S256x2048_1_1_0_0_n_n.lhsIdx j k 0 : ℕ) = j 0 := by
  simp [DotDims.lhsIdx, dot_S256x4096_S2048x4096_S256x2048_1_1_0_0_n_n]; rfl

/-- … and at the contracted feature. -/
theorem lhs_feat (j : S256x2048.Idx) (k : dot_S256x4096_S2048x4096_S256x2048_1_1_0_0_n_n.contr.Idx) :
    (dot_S256x4096_S2048x4096_S256x2048_1_1_0_0_n_n.lhsIdx j k 1).val = (k ⟨0, by decide⟩).val :=
  dot_S256x4096_S2048x4096_S256x2048_1_1_0_0_n_n.lhsIdx_val_of_single (cl := 1) rfl j k

/-- The right operand is read at the row the output's column names … -/
theorem rhs_row (j : S256x2048.Idx) (k : dot_S256x4096_S2048x4096_S256x2048_1_1_0_0_n_n.contr.Idx) :
    (dot_S256x4096_S2048x4096_S256x2048_1_1_0_0_n_n.rhsIdx j k 0 : ℕ) = j 1 := by
  simp [DotDims.rhsIdx, dot_S256x4096_S2048x4096_S256x2048_1_1_0_0_n_n]; rfl

/-- … and at the contracted feature. -/
theorem rhs_feat (j : S256x2048.Idx) (k : dot_S256x4096_S2048x4096_S256x2048_1_1_0_0_n_n.contr.Idx) :
    (dot_S256x4096_S2048x4096_S256x2048_1_1_0_0_n_n.rhsIdx j k 1).val = (k ⟨0, by decide⟩).val :=
  dot_S256x4096_S2048x4096_S256x2048_1_1_0_0_n_n.rhsIdx_val_of_single (cr := 1) rfl j k

/-! ## The body's product at an index -/

/-- Entry (a, b) of the block product: row a of the activation block against row b of the weight block, over the 4096 features. -/
theorem blockProduct_apply (x0 : Vec Ideal S256x4096 .f32) (x1 : Vec Ideal S2048x4096 .bf16) (a : Fin 256) (b : Fin 2048) :
    k1_pay1 (F := Ideal) x0 x1 (ix2 a b) = ∑ k : Fin 4096, x0 (ix2 a k) * x1 (ix2 b k) := by
  unfold k1_pay1
  simp only [matmul, shapeCast_self]
  refine (Ideal.matmul_constant_zero_apply (φ₁ := .bf16) (φ₂ := .bf16) dot_S256x4096_S2048x4096_S256x2048_1_1_0_0_n_n none
    (truncf .bf16 x0 bitsLt_bf16_f32) x1 (ix2 a b)).trans ?_
  rw [← Equiv.sum_comp (contrEquiv1 dot_S256x4096_S2048x4096_S256x2048_1_1_0_0_n_n 4096 rfl rfl).symm]
  refine Finset.sum_congr rfl fun k _ => ?_
  have hl : dot_S256x4096_S2048x4096_S256x2048_1_1_0_0_n_n.lhsIdx (ix2 a b)
      ((contrEquiv1 dot_S256x4096_S2048x4096_S256x2048_1_1_0_0_n_n 4096 rfl rfl).symm k) = ix2 a k := by
    funext d; apply Fin.ext
    match d with
    | ⟨0, _⟩ => exact lhs_row _ _
    | ⟨1, _⟩ => exact (lhs_feat _ _).trans (contrEquiv1_symm_val _ 4096 rfl rfl k)
  have hr : dot_S256x4096_S2048x4096_S256x2048_1_1_0_0_n_n.rhsIdx (ix2 a b)
      ((contrEquiv1 dot_S256x4096_S2048x4096_S256x2048_1_1_0_0_n_n 4096 rfl rfl).symm k) = ix2 b k := by
    funext d; apply Fin.ext
    match d with
    | ⟨0, _⟩ => exact rhs_row _ _
    | ⟨1, _⟩ => exact (rhs_feat _ _).trans (contrEquiv1_symm_val _ 4096 rfl rfl k)
  rw [hl, hr]
  rfl

/-- Entry y of the block product, y an index of the [256, 2048] block. -/
theorem blockProduct_eq (x0 : Vec Ideal S256x4096 .f32) (x1 : Vec Ideal S2048x4096 .bf16) (y : S256x2048.Idx) :
    k1_pay1 (F := Ideal) x0 x1 y = ∑ k : Fin 4096, x0 (ix2 (y 0) k) * x1 (ix2 (y 1) k) :=
  (congrArg (k1_pay1 (F := Ideal) x0 x1) (eq_ix2 y)).trans (blockProduct_apply x0 x1 (y 0) (y 1))

/-! ## From the blocks to the array -/

theorem zero_offsets : (![0, 0] : Fin 2 → Nat) = fun _ => 0 :=
  funext fun a => by match a with | ⟨0, _⟩ => rfl | ⟨1, _⟩ => rfl

/-- The block indices over the grid, point t = 32·j + i: the activation block is (i, 0), the weight block (j, 0),
    the output block (i, j). -/
theorem blockIndex_facts : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 31
    ∧ win1_2.index t (1 : Fin 2) ≤ 1 :=
  (by decide +kernel : ∀ t : Fin grid1.N, _)

/-- Every output block (i, j) is some point's. -/
theorem blockIndex_onto : ∀ (q0 : Fin 32) (q1 : Fin 2), ∃ t : Fin cfg1.N, win1_2.index t = ![q0.val, q1.val] :=
  (by decide +kernel : ∀ (q0 : Fin 32) (q1 : Fin 2), ∃ t : Fin grid1.N, win1_2.index t = ![q0.val, q1.val])

/-- The block product at y is the rows-against-rows product at i, once row (y 0) of the activation block is row (i 0)
    of the activations and row (y 1) of the weight block is row (i 1) of the weight. -/
theorem blockProduct_rowsDot (x0 : Vec Ideal S256x4096 .f32) (x1 : Vec Ideal S2048x4096 .bf16)
    (A : Cert.Nf4.SX2.Idx → EReal) (B : Cert.Nf4.SW.Idx → EReal) (y : S256x2048.Idx) (i : Cert.Nf4.SX2.Idx)
    (h0 : ∀ k : Fin 4096, x0 (ix2 (y 0) k) = A (ix2 (i 0) k))
    (h1 : ∀ k : Fin 4096, x1 (ix2 (y 1) k) = B (ix2 (i 1) k)) :
    k1_pay1 (F := Ideal) x0 x1 y = Cert.Nf4.rowsDot A B i :=
  (blockProduct_eq x0 x1 y).trans (Finset.sum_congr rfl fun k _ => by rw [h0 k, h1 k])

/-- An index of the output array is in point t's block iff each coordinate is in the block's range on its axis. -/
theorem mem_outBlock (t : Fin cfg1.N) (i : S8192x4096.Idx) :
    i ∈ ((cfg1.win 2).blk t).view.set ↔ ∀ a : Fin 2, win1_2.index t a * S256x2048.size a ≤ (i a).val
      ∧ (i a).val < win1_2.index t a * S256x2048.size a + S256x2048.size a := by
  show i ∈ ((View.whole main_v4).slice (win1_2.rect t)).set ↔ _
  rw [View.set_slice_whole, Rect.mem_set_unit]
  exact Iff.rfl

/-- The 32 × 2 output blocks tile the array: index (r, o) is in the block of the point with i = r / 256, j = o / 2048. -/
theorem covered (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := blockIndex_onto ⟨(i 0).val / 256, by omega⟩ ⟨(i 1).val / 2048, by omega⟩
  have q0 : win1_2.index t (0 : Fin 2) = (i 0).val / 256 := congrFun ht 0
  have q1 : win1_2.index t (1 : Fin 2) = (i 1).val / 2048 := congrFun ht 1
  refine ⟨t, flush1_2 t, ?_⟩
  rw [mem_outBlock]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 2048 ≤ (i 1).val ∧ (i 1).val < win1_2.index t (1 : Fin 2) * 2048 + 2048; omega

/-- What point t writes back is block t of the rows-against-rows product of the two arrays as the call finds them. -/
theorem flushed_eq (c : Dev nD) (t : Fin cfg1.N) :
    (dat1 (F := Ideal) V c).flushed 2 t
      = ((cfg1.win 2).blk t).view.read (Elt Ideal) (Cert.Nf4.rowsDot (V c main_v3) (V c main_v2)) := by
  show (cfg1.win 2).cut (grid1.coords t) ((dat1 (F := Ideal) V c).after 2 t) = _
  rw [after1_2]
  unfold out1_2
  rw [View.canon_unit_zero zero_offsets]
  simp only [View.ld_unit_zero (S := S256x4096) zero_offsets, View.ld_unit_zero (S := S2048x4096) zero_offsets]
  obtain ⟨e0, e1, e2, e3, e4, e5⟩ := blockIndex_facts t
  refine funext fun (y : S256x2048.Idx) => ?_
  refine blockProduct_rowsDot (iblk1 V c 0 t) (iblk1 V c 1 t) (V c main_v3) (V c main_v2) y
    (((cfg1.win 2).blk t).view.emb y) (fun k => ?_) (fun k => ?_)
  · show V c main_v3 (((cfg1.win 0).blk t).view.emb (ix2 (y 0) k)) = V c main_v3 (ix2 ((((cfg1.win 2).blk t).view.emb y) 0) k)
    refine congrArg (V c main_v3) ?_
    funext a; apply Fin.ext
    match a with
    | ⟨0, _⟩ => show win1_0.index t (0 : Fin 2) * 256 + 1 * (y 0).val = win1_2.index t (0 : Fin 2) * 256 + 1 * (y 0).val; omega
    | ⟨1, _⟩ => show win1_0.index t (1 : Fin 2) * 4096 + 1 * k.val = k.val; omega
  · show V c main_v2 (((cfg1.win 1).blk t).view.emb (ix2 (y 1) k)) = V c main_v2 (ix2 ((((cfg1.win 2).blk t).view.emb y) 1) k)
    refine congrArg (V c main_v2) ?_
    funext a; apply Fin.ext
    match a with
    | ⟨0, _⟩ => show win1_1.index t (0 : Fin 2) * 2048 + 1 * (y 1).val = win1_2.index t (1 : Fin 2) * 2048 + 1 * (y 1).val; omega
    | ⟨1, _⟩ => show win1_1.index t (1 : Fin 2) * 4096 + 1 * k.val = k.val; omega

/-- After the 2 × 32 grid points the output array holds, at (r, o), the sum over the 4096 input features of the
    activation row r against the weight row o. -/
theorem final (c : Dev nD) :
    (dat1 (F := Ideal) V c).arrAt 2 cfg1.N = Cert.Nf4.rowsDot (V c main_v3) (V c main_v2) :=
  (dat1 (F := Ideal) V c).arrAt_eq_of_cover 2 (Cert.Nf4.rowsDot (V c main_v3) (V c main_v2))
    (fun t _ => flushed_eq V c t) covered

end Cert.KernelIdeal.Region1

end
-- ==== Proof.SpecLaws.lean ====
/-
  Two facts about re-reading an array row-major, which join the kernel's layout to the specification's.

  The kernel keeps the scales as a [16384, 1] column and the activations as 8192 rows; the specification speaks of the
  scales as a vector and of the activations as [4, 2048] rows.  A row-major re-reading keeps the flat position, so the
  column at (p, 0) is the vector at p, and row 2048·b + s of the 8192 is row (b, s) of the [4, 2048].
-/
import proofs.«427601_j31095563223127_3_alg».proof.Proof.Spec
import Idealize.ShloMosaic.Lib.Pipeline.Value

noncomputable section

namespace Cert.Nf4

open Idealize.ShloMosaic Idealize.ShloMosaic.ValueIdx

/-- The dequantised entries over the scales kept as a column are the dequantised entries over the scales. -/
theorem deqCol_cast (idx : SQ.Idx → BitVec 32) (sc : SS.Idx → EReal) (h : SS.ShapeCasts SC) :
    deqCol idx (shapeCast SC sc h) = deq idx sc := by
  funext j
  unfold deqCol deq
  congr 1
  refine shapeCast_apply sc h (ix2 (j 0) (0 : Fin 1)) (ix1 (j 0)) ?_
  rw [Shape.rowMajor_val_one, Shape.rowMajor_val_two]
  show (j 0).val = (j 0).val * 1 + 0
  omega

/-- Rows against rows over the activations read as 8192 rows, re-read as [4, 2048, 4096], is the sum the specification
    writes: entry (b, s, o) sums the activation row (b, s) against the weight row o. -/
theorem rows_reshape (x : SX.Idx → EReal) (w : SW.Idx → EReal) (h1 : SX.ShapeCasts SX2) (h2 : SX2.ShapeCasts SX) :
    shapeCast SX (rowsDot (shapeCast SX2 x h1) w) h2
      = fun i => ∑ k : Fin 4096, x (ix3 (i 0) (i 1) k) * w (ix2 (i 2) k) := by
  funext i
  have h0 : (i 0).val < 4 := (i 0).isLt
  have hs : (i 1).val < 2048 := (i 1).isLt
  have hr : (i 0).val * 2048 + (i 1).val < 8192 := by omega
  rw [shapeCast_apply _ h2 i (ix2 (⟨(i 0).val * 2048 + (i 1).val, hr⟩ : Fin 8192) (i 2))
    (by rw [Shape.rowMajor_val_two, Shape.rowMajor_val_three]; rfl)]
  unfold rowsDot
  refine Finset.sum_congr rfl fun k _ => ?_
  congr 1
  exact shapeCast_apply x h1 _ (ix3 (i 0) (i 1) k) (by rw [Shape.rowMajor_val_two, Shape.rowMajor_val_three]; rfl)

/-- The kernel's layout of the whole computation is the specification's result. -/
theorem layout_eq (x : SX.Idx → EReal) (idx : SQ.Idx → BitVec 32) (sc : SS.Idx → EReal)
    (h1 : SX.ShapeCasts SX2) (h2 : SX2.ShapeCasts SX) (h3 : SS.ShapeCasts SC) (h4 : SQ.ShapeCasts SW) :
    shapeCast SX (rowsDot (shapeCast SX2 x h1) (shapeCast SW (deqCol idx (shapeCast SC sc h3)) h4)) h2
      = result x idx sc := by
  rw [rows_reshape, deqCol_cast]
  rfl

end Cert.Nf4

end
-- ==== Proof.KernelValue.lean ====
/-
  The kernel program's result buffer as one function of the three arguments.

  @main is: the scales re-read as a column; the dequantisation call; its output re-read as the [4096, 4096] weight and the
  activations re-read as 8192 rows; the matrix-product call; its output re-read as [4, 2048, 4096].  Walking the buffer
  contents back from the result through those five steps, with what each call leaves in its output array, gives the
  specification's result.
-/
import proofs.«427601_j31095563223127_3_alg».proof.Proof.Region0
import proofs.«427601_j31095563223127_3_alg».proof.Proof.Region1
import proofs.«427601_j31095563223127_3_alg».proof.Proof.SpecLaws
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- Entering the dequantisation call, the codes are as launched. -/
theorem entry0_codes (c : Dev nD) : V1 m ρ c main_arg1 = m ((c : Thread nD τ).loc main_arg1) := by
  show StableHlo.after hostOps0 (W0 m ρ c) (Proc.devRef .tc main_arg1) = _
  after_results

/-- Entering the dequantisation call, the scale column is the launched scales re-read as a column. -/
theorem entry0_scales (c : Dev nD) :
    V1 m ρ c main_v0 = shapeCast S16384x1 (m ((c : Thread nD τ).loc main_arg2)) shapeCasts_S16384_S16384x1 := by
  show StableHlo.after hostOps0 (W0 m ρ c) (Proc.devRef .tc main_v0) = _
  after_results
  rfl

/-- Leaving the dequantisation call, its output array holds the dequantised entries (over the scale column). -/
theorem exit0_out (c : Dev nD) (hr : Cert.Nf4.InRange (m ((c : Thread nD τ).loc main_arg1))) :
    W2 m ρ c (Proc.devRef .tc main_v1)
      = Cert.Nf4.deqCol (m ((c : Thread nD τ).loc main_arg1))
          (shapeCast S16384x1 (m ((c : Thread nD τ).loc main_arg2)) shapeCasts_S16384_S16384x1) := by
  refine (W2_arr m ρ c 2).trans ?_
  rw [Region0.final (V1 m ρ) c (by rw [entry0_codes]; exact hr), entry0_codes, entry0_scales]

/-- The dequantisation call leaves the activations as launched. -/
theorem exit0_x (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results

/-- Entering the matrix-product call, the activations are the launched ones re-read as 8192 rows. -/
theorem entry1_x (c : Dev nD) :
    V3 m ρ c main_v3 = shapeCast S8192x4096 (m ((c : Thread nD τ).loc main_arg0)) shapeCasts_S4x2048x4096_S8192x4096 := by
  show StableHlo.after hostOps1 (W2 m ρ c) (Proc.devRef .tc main_v3) = _
  after_results
  rw [exit0_x]
  rfl

/-- Entering the matrix-product call, the weight is the dequantised entries re-read as a [4096, 4096] matrix. -/
theorem entry1_w (c : Dev nD) (hr : Cert.Nf4.InRange (m ((c : Thread nD τ).loc main_arg1))) :
    V3 m ρ c main_v2
      = shapeCast S4096x4096 (Cert.Nf4.deqCol (m ((c : Thread nD τ).loc main_arg1))
          (shapeCast S16384x1 (m ((c : Thread nD τ).loc main_arg2)) shapeCasts_S16384_S16384x1)) shapeCasts_S16384x1024_S4096x4096 := by
  show StableHlo.after hostOps1 (W2 m ρ c) (Proc.devRef .tc main_v2) = _
  after_results
  rw [exit0_out m ρ c hr]
  rfl

/-- Leaving the matrix-product call, its output array holds the rows-against-rows sums. -/
theorem exit1_out (c : Dev nD) (hr : Cert.Nf4.InRange (m ((c : Thread nD τ).loc main_arg1))) :
    W4 m ρ c (Proc.devRef .tc main_v4)
      = Cert.Nf4.rowsDot (shapeCast S8192x4096 (m ((c : Thread nD τ).loc main_arg0)) shapeCasts_S4x2048x4096_S8192x4096)
          (shapeCast S4096x4096 (Cert.Nf4.deqCol (m ((c : Thread nD τ).loc main_arg1))
            (shapeCast S16384x1 (m ((c : Thread nD τ).loc main_arg2)) shapeCasts_S16384_S16384x1)) shapeCasts_S16384x1024_S4096x4096) := by
  refine (W4_arr m ρ c 2).trans ?_
  rw [Region1.final (V3 m ρ) c, entry1_x, entry1_w m ρ c hr]

/-- The result buffer at the end of @main is the specification's result of the three arguments. -/
theorem result_eq (c : Dev nD) (hr : Cert.Nf4.InRange (m ((c : Thread nD τ).loc main_arg1))) :
    W5 m ρ c (Proc.devRef .tc main_v5)
      = Cert.Nf4.result (m ((c : Thread nD τ).loc main_arg0)) (m ((c : Thread nD τ).loc main_arg1)) (m ((c : Thread nD τ).loc main_arg2)) := by
  show StableHlo.after hostOps2 (W4 m ρ c) (Proc.devRef .tc main_v5) = _
  after_results
  rw [exit1_out m ρ c hr]
  exact Cert.Nf4.layout_eq _ _ _ _ _ _ _

end Cert.KernelIdeal.KValue

end
-- ==== Proof.RefRun.lean ====
/-
  The reference program's run, read back: its @main is fifteen host operations in a row, so every weakly fair execution
  terminates with the result buffer at those operations composed, as one term of the three argument arrays, and the
  arguments unchanged.  The term: the codes with negative ones moved up by sixteen, the level table gathered at them, times
  the scales laid along each block row, re-read as a [4096, 4096] matrix, and the activations' product with it.
-/
import proofs.«427601_j31095563223127_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 15 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S16384x1024 ![] bcast_S_S16384x1024 : (⟨S_, .i32⟩ : BufTy).Contents (Elt F) → (⟨S16384x1024, .i32⟩ : BufTy).Contents (Elt F)),
    binary main_arg1 main_v0 main_v1 (cmpi .slt : (⟨S16384x1024, .i32⟩ : BufTy).Contents (Elt F) → (⟨S16384x1024, .i32⟩ : BufTy).Contents (Elt F) → (⟨S16384x1024, .i1⟩ : BufTy).Contents (Elt F)),
    nullary main_c_0 (constantI S_ 32 16#32),
    unary main_c_0 main_v2 (broadcastInDim S16384x1024 ![] bcast_S_S16384x1024 : (⟨S_, .i32⟩ : BufTy).Contents (Elt F) → (⟨S16384x1024, .i32⟩ : BufTy).Contents (Elt F)),
    binary main_arg1 main_v2 main_v3 (addi : (⟨S16384x1024, .i32⟩ : BufTy).Contents (Elt F) → (⟨S16384x1024, .i32⟩ : BufTy).Contents (Elt F) → (⟨S16384x1024, .i32⟩ : BufTy).Contents (Elt F)),
    ternary main_v1 main_v3 main_arg1 main_v4 (select : (⟨S16384x1024, .i1⟩ : BufTy).Contents (Elt F) → (⟨S16384x1024, .i32⟩ : BufTy).Contents (Elt F) → (⟨S16384x1024, .i32⟩ : BufTy).Contents (Elt F) → (⟨S16384x1024, .i32⟩ : BufTy).Contents (Elt F)),
    unary main_v4 main_v5 (broadcastInDim S16384x1024x1 ![0, 1] bcast_S16384x1024_S16384x1024x1_0_1 : (⟨S16384x1024, .i32⟩ : BufTy).Contents (Elt F) → (⟨S16384x1024x1, .i32⟩ : BufTy).Contents (Elt F)),
    binary main_cst main_v5 main_v6 ((fun x i => Host.gather gather_S16_S16384x1024x1_S16384x1024_n_0_n_n_0_2_1 x i) : (⟨S16, .f32⟩ : BufTy).Contents (Elt F) → (⟨S16384x1024x1, .i32⟩ : BufTy).Contents (Elt F) → (⟨S16384x1024, .f32⟩ : BufTy).Contents (Elt F)),
    unary main_arg2 main_v7 (broadcastInDim S16384x1 ![0] bcast_S16384_S16384x1_0 : (⟨S16384, .f32⟩ : BufTy).Contents (Elt F) → (⟨S16384x1, .f32⟩ : BufTy).Contents (Elt F)),
    unary main_v7 main_v8 (broadcastInDim S16384x1024 ![0, 1] bcast_S16384x1_S16384x1024_0_1 : (⟨S16384x1, .f32⟩ : BufTy).Contents (Elt F) → (⟨S16384x1024, .f32⟩ : BufTy).Contents (Elt F)),
    binary main_v6 main_v8 main_v9 (mulf : (⟨S16384x1024, .f32⟩ : BufTy).Contents (Elt F) → (⟨S16384x1024, .f32⟩ : BufTy).Contents (Elt F) → (⟨S16384x1024, .f32⟩ : BufTy).Contents (Elt F)),
    reshape main_v9 main_v10 rfl shapeCasts_S16384x1024_S4096x4096,
    binary main_arg0 main_v10 main_v11 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)) ]

/-- The sixteen levels as the program's constant holds them. -/
abbrev table : FVec F S16 .f32 := fun i => FloatOps.ofBits .f32 (lit0 (S16.rowMajor i))

/-- The codes as the lookup takes them: a negative code moved up by sixteen, any other as it is. -/
abbrev wrapped (idx : IVec S16384x1024 32) : IVec S16384x1024 32 :=
  select (cmpi .slt idx (broadcastInDim S16384x1024 ![] bcast_S_S16384x1024 (constantI S_ 32 0#32)))
    (addi idx (broadcastInDim S16384x1024 ![] bcast_S_S16384x1024 (constantI S_ 32 16#32))) idx

/-- The dequantised entries: the table gathered at the codes, times the scales laid along each block row. -/
abbrev dequant (idx : IVec S16384x1024 32) (sc : FVec F S16384 .f32) : FVec F S16384x1024 .f32 :=
  mulf (Host.gather gather_S16_S16384x1024x1_S16384x1024_n_0_n_n_0_2_1 (table (F := F))
      (broadcastInDim S16384x1024x1 ![0, 1] bcast_S16384x1024_S16384x1024x1_0_1 (wrapped idx)))
    (broadcastInDim S16384x1024 ![0, 1] bcast_S16384x1_S16384x1024_0_1 (broadcastInDim S16384x1 ![0] bcast_S16384_S16384x1_0 sc))

/-- The whole result: the activations' product with the dequantised entries re-read as a [4096, 4096] matrix. -/
abbrev term (x : FVec F S4x2048x4096 .f32) (idx : IVec S16384x1024 32) (sc : FVec F S16384 .f32) : FVec F S4x2048x4096 .f32 :=
  Host.dotGeneral dot_S4x2048x4096_S4096x4096_S4x2048x4096_2_1_01_0_n_n none x
    (shapeCast S4096x4096 (dequant idx sc) shapeCasts_S16384x1024_S4096x4096)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., unary_bufs_sub .., unary_bufs_sub ..,
   binary_bufs_sub .., reshape_bufs_sub .., binary_bufs_sub ..⟩

/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = term (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.Run

end
-- ==== Proof.RefValue.lean ====
/-
  The reference's composed term is the specification's result, when every code is in range.
-/
import proofs.«427601_j31095563223127_3_alg».proof.Proof.RefRun
import proofs.«427601_j31095563223127_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen
open Idealize.ShloMosaic Idealize.ShloMosaic.ValueIdx

/-- The program's table of levels is the specification's, code by code. -/
theorem lit0_eq_levelWord (i : Fin 16) : lit0 i = Cert.Nf4.levelWord i := by
  fin_cases i <;> rfl

/-- A code whose signed value is not negative is left as it is by the move of negative codes. -/
theorem wrapped_apply (idx : IVec S16384x1024 32) (j : S16384x1024.Idx) (h0 : 0 ≤ (idx j).toInt) :
    Cert.ReferenceIdeal.Run.wrapped idx j = idx j := by
  have hc : IntOp.cmpi .slt (idx j) 0#32 = 0#1 := by
    have : ¬ (idx j).toInt < (0#32 : BitVec 32).toInt := by
      rw [show (0#32 : BitVec 32).toInt = 0 from by decide]; omega
    simp only [IntOp.cmpi, BitVec.slt, this, decide_false]
    rfl
  show Scalar.select (IntOp.cmpi .slt (idx j) 0#32) _ (idx j) = idx j
  rw [hc, select_zero]

/-- The codes laid out with a trailing unit axis read, at (p, k, 0), the code at (p, k). -/
theorem bcast_codes_apply (v : IVec S16384x1024 32) (y : S16384x1024.Idx) :
    broadcastInDim S16384x1024x1 ![0, 1] bcast_S16384x1024_S16384x1024x1_0_1 v (takeIdx y) = v y := by
  simp only [broadcastInDim]
  congr 1
  funext a
  match a with
  | ⟨0, _⟩ => rfl
  | ⟨1, _⟩ => rfl

/-- A word whose signed value lies in 0..15 has that value as its unsigned one. -/
theorem toNat_of_inRange (q : BitVec 32) (h0 : 0 ≤ q.toInt) (h1 : q.toInt < 16) : q.toInt.toNat = q.toNat ∧ q.toNat < 16 := by
  have hlt : q.toNat < 2 ^ 31 := by
    by_contra hge
    have : q.toInt < 0 := by
      rw [BitVec.toInt_eq_toNat_cond]
      split <;> omega
    omega
  have := StableHlo.Predicate.toInt_eq_toNat_of_lt hlt
  omega

/-- The table at the position a code in range names is the code's level. -/
theorem table_apply (q : BitVec 32) (h0 : 0 ≤ q.toInt) (h1 : q.toInt < 16) (hlt' : min q.toInt.toNat (16 - 1) < 16) :
    Cert.ReferenceIdeal.Run.table (F := Ideal) (ix1 ⟨min q.toInt.toNat (16 - 1), hlt'⟩) = Cert.Nf4.level q := by
  obtain ⟨hn, hlt⟩ := toNat_of_inRange q h0 h1
  show Ideal.ofBits .f32 (lit0 (S16.rowMajor _)) = Ideal.ofBits .f32 (Cert.Nf4.levelWord (Fin.ofNat 16 q.toNat))
  refine congrArg (Ideal.ofBits .f32) ((lit0_eq_levelWord _).trans (congrArg Cert.Nf4.levelWord (Fin.ext ?_)))
  rw [Shape.rowMajor_val_one]
  show min q.toInt.toNat (16 - 1) = q.toNat % 16
  omega

/-- The lookup at (p, k) is the level of the code there, when that code is in range. -/
theorem gather_apply (idx : IVec S16384x1024 32) (hr : Cert.Nf4.InRange idx) (y : S16384x1024.Idx) :
    Host.gather gather_S16_S16384x1024x1_S16384x1024_n_0_n_n_0_2_1 (Cert.ReferenceIdeal.Run.table (F := Ideal))
      (broadcastInDim S16384x1024x1 ![0, 1] bcast_S16384x1024_S16384x1024x1_0_1 (Cert.ReferenceIdeal.Run.wrapped idx)) y
      = Cert.Nf4.level (idx y) := by
  have h := gather_take_apply (N := 16) (R := 16384) (C := 1024) (by decide)
    gather_S16_S16384x1024x1_S16384x1024_n_0_n_n_0_2_1_wf (Cert.ReferenceIdeal.Run.table (F := Ideal))
    (broadcastInDim S16384x1024x1 ![0, 1] bcast_S16384x1024_S16384x1024x1_0_1 (Cert.ReferenceIdeal.Run.wrapped idx)) y
  refine h.trans ?_
  have hq : broadcastInDim S16384x1024x1 ![0, 1] bcast_S16384x1024_S16384x1024x1_0_1 (Cert.ReferenceIdeal.Run.wrapped idx) (takeIdx y) = idx y := by
    rw [bcast_codes_apply, wrapped_apply idx y (hr y).1]
  have key : ∀ (q q' : BitVec 32) (e : q = q') (hlt' : min q.toInt.toNat (16 - 1) < 16), 0 ≤ q'.toInt → q'.toInt < 16 →
      Cert.ReferenceIdeal.Run.table (F := Ideal) (ix1 ⟨min q.toInt.toNat (16 - 1), hlt'⟩) = Cert.Nf4.level q' := by
    intro q q' e hlt' h0 h1
    subst e
    exact table_apply q h0 h1 hlt'
  exact key _ _ hq _ (hr y).1 (hr y).2

/-- With every code in range the lookup reads the code's own level, so the dequantised entries are the specification's. -/
theorem dequant_eq (idx : IVec S16384x1024 32) (sc : FVec Ideal S16384 .f32) (hr : Cert.Nf4.InRange idx) :
    Cert.ReferenceIdeal.Run.dequant (F := Ideal) idx sc = Cert.Nf4.deq idx sc := by
  funext j
  obtain ⟨p, k, rfl⟩ : ∃ (p : Fin 16384) (k : Fin 1024), j = ix2 p k := ⟨j 0, j 1, eq_ix2 j⟩
  show _ * _ = Cert.Nf4.level (idx (ix2 p k)) * sc (ix1 p)
  congr 1
  · exact gather_apply idx hr (ix2 p k)
  · have h := StableHlo.Predicate.bcast_rows (n := 16384) (m := 1024) bcast_S16384_S16384x1_0 bcast_S16384x1_S16384x1024_0_1 sc p k
    have e1 : StableHlo.Predicate.ij p k = ix2 p k := by
      funext d; match d with | ⟨0, _⟩ => rfl | ⟨1, _⟩ => rfl
    have e2 : (Shape.Idx.ofFin p : (⟨1, ![16384]⟩ : Shape).Idx) = ix1 p := by
      funext d; match d with | ⟨0, _⟩ => rfl
    rw [e1, e2] at h
    exact h

/-- The dot's dimension numbers: the activations' feature axis against the weight's input axis. -/
abbrev refDot := dot_S4x2048x4096_S4096x4096_S4x2048x4096_2_1_01_0_n_n

/-- The activation index of a product keeps the result's batch coordinate … -/
theorem lhs_ax0 (i : S4x2048x4096.Idx) (k : refDot.contr.Idx) : (refDot.lhsIdx i k 0 : ℕ) = i 0 := by
  unfold DotDims.lhsIdx
  rw [dif_neg (show ¬ (0 : Fin S4x2048x4096.rank) ∈ refDot.lhsBatch from by decide),
    dif_pos (show (0 : Fin S4x2048x4096.rank) ∈ refDot.lhsNonContracting from by decide)]
  rfl
/-- … and its sequence coordinate, … -/
theorem lhs_ax1 (i : S4x2048x4096.Idx) (k : refDot.contr.Idx) : (refDot.lhsIdx i k 1 : ℕ) = i 1 := by
  unfold DotDims.lhsIdx
  rw [dif_neg (show ¬ (1 : Fin S4x2048x4096.rank) ∈ refDot.lhsBatch from by decide),
    dif_pos (show (1 : Fin S4x2048x4096.rank) ∈ refDot.lhsNonContracting from by decide)]
  rfl
/-- … and reads the summed feature on its last axis. -/
theorem lhs_ax2 (i : S4x2048x4096.Idx) (k : refDot.contr.Idx) : (refDot.lhsIdx i k 2 : ℕ) = k ⟨0, by decide⟩ :=
  DotDims.lhsIdx_val_of_single refDot rfl i k
/-- The weight index of a product is the result's feature coordinate, as the weight's row, … -/
theorem rhs_ax0 (i : S4x2048x4096.Idx) (k : refDot.contr.Idx) : (refDot.rhsIdx i k 0 : ℕ) = i 2 := by
  unfold DotDims.rhsIdx
  rw [dif_neg (show ¬ (0 : Fin S4096x4096.rank) ∈ refDot.rhsBatch from by decide),
    dif_pos (show (0 : Fin S4096x4096.rank) ∈ refDot.rhsNonContracting from by decide)]
  rfl
/-- … and the summed feature, as its column. -/
theorem rhs_ax1 (i : S4x2048x4096.Idx) (k : refDot.contr.Idx) : (refDot.rhsIdx i k 1 : ℕ) = k ⟨0, by decide⟩ :=
  DotDims.rhsIdx_val_of_single refDot rfl i k

/-- The reference's whole term is the specification's result. -/
theorem term_eq (x : FVec Ideal S4x2048x4096 .f32) (idx : IVec S16384x1024 32) (sc : FVec Ideal S16384 .f32)
    (hr : Cert.Nf4.InRange idx) :
    Cert.ReferenceIdeal.Run.term (F := Ideal) x idx sc = Cert.Nf4.result x idx sc := by
  have hW : shapeCast S4096x4096 (Cert.ReferenceIdeal.Run.dequant (F := Ideal) idx sc) shapeCasts_S16384x1024_S4096x4096
      = Cert.Nf4.weight idx sc :=
    congrArg (fun v => shapeCast S4096x4096 v shapeCasts_S16384x1024_S4096x4096) (dequant_eq idx sc hr)
  funext i
  show FloatOps.dotGeneral refDot none .single x
      (shapeCast S4096x4096 (Cert.ReferenceIdeal.Run.dequant (F := Ideal) idx sc) shapeCasts_S16384x1024_S4096x4096) i
    = ∑ k : Fin 4096, x (ix3 (i 0) (i 1) k) * Cert.Nf4.weight idx sc (ix2 (i 2) k)
  rw [hW, Ideal.dotGeneral_apply, ← Equiv.sum_comp (contrEquiv1 refDot 4096 rfl rfl).symm]
  refine Finset.sum_congr rfl fun k _ => ?_
  have hk := contrEquiv1_symm_val refDot 4096 rfl rfl k
  congr 2
  · funext a
    match a with
    | ⟨0, _⟩ => exact Fin.ext (lhs_ax0 _ _)
    | ⟨1, _⟩ => exact Fin.ext (lhs_ax1 _ _)
    | ⟨2, _⟩ => exact Fin.ext ((lhs_ax2 _ _).trans hk)
  · funext a
    match a with
    | ⟨0, _⟩ => exact Fin.ext (rhs_ax0 _ _)
    | ⟨1, _⟩ => exact Fin.ext ((rhs_ax1 _ _).trans hk)

end Cert.ReferenceIdeal.RefValue

end
-- ==== Proof.PreDecode.lean ====
/-
  What the precondition says about the codes.  The printed predicate is a conjunction of four "all" tests; the last two
  say every code, compared as a signed word, is at least 0 and below 16.  The predicate being all ones gives both at
  every position.  (The two finiteness tests are not needed: no step of the proof uses a law that fails at infinities.)
-/
import proofs.«427601_j31095563223127_3_alg».proof.Pre_finite_inputs
import proofs.«427601_j31095563223127_3_alg».proof.Proof.Gen.Pre_finite_inputs
import proofs.«427601_j31095563223127_3_alg».proof.Proof.Spec
import Idealize.ShloMosaic.Lib.ReduceAll
import Idealize.ShloMosaic.Lib.ValueIdx
import Idealize.ShloMosaic.Lib.StableHlo.Predicate

noncomputable section

namespace Cert.Nf4.PreDecode

open Idealize.ShloMosaic Cert.Pre_finite_inputs

instance : Subsingleton S_.Idx := ⟨fun a b => funext fun d => d.elim0⟩

/-- A word that compares signed-at-least 0 is non-negative read signed. -/
theorem nonneg_of_sge (a : BitVec 32) (h : IntOp.cmpi .sge a 0#32 = 1#1) : 0 ≤ a.toInt := by
  unfold IntOp.cmpi at h
  have := (StableHlo.Predicate.ofBool_eq_one_iff _).1 h
  simpa [BitVec.sle] using this

/-- A word that compares signed-below 16 is below 16 read signed. -/
theorem lt_of_slt (a : BitVec 32) (h : IntOp.cmpi .slt a 16#32 = 1#1) : a.toInt < 16 := by
  unfold IntOp.cmpi at h
  have := (StableHlo.Predicate.ofBool_eq_one_iff _).1 h
  simpa [BitVec.slt] using this

/-- Under the precondition every code is in range. -/
theorem inRange_of_pre (x : FVec Ideal S4x2048x4096 .f32) (idx : IVec S16384x1024 32) (sc : FVec Ideal S16384 .f32)
    (h : fn (F := Ideal) x idx sc = fun _ => 1#1) : Cert.Nf4.InRange idx := by
  have h0 := congrFun h ValueIdx.ix0
  dsimp only [fn, fn_part1] at h0
  obtain ⟨h12, h15⟩ := IntOp.andi_eq_one.1 h0
  obtain ⟨h8, h11⟩ := IntOp.andi_eq_one.1 h12
  intro j
  have hge := Host.reduce_andi_all _ _ _ _ _ h11 j
  have hlt := Host.reduce_andi_all _ _ _ _ _ h15 j
  exact ⟨nonneg_of_sge _ hge, lt_of_slt _ hlt⟩

end Cert.Nf4.PreDecode

end
-- ==== Proof.lean ====
/-
  The certificate of the NF4-dequantise-then-multiply kernel against its jnp reference.

  Both programs compute, over the extended reals, y[b, s, o] = ∑ k, x[b, s, k] · W[o, k], where W is the [16384, 1024] array
  level(code) · scale-of-block re-read row-major as [4096, 4096].  The kernel clips a code into 0..15 and picks its level by
  fifteen compare-and-select steps; the reference moves a negative code up by sixteen and looks the level up in a table,
  the lookup clamping.  On codes in 0..15 — the precondition — both read the code's own level, and everything after that
  is the same products and the same sum, laid out differently (the kernel multiplies 8192 rows in 64 blocks and re-reads
  the result as [4, 2048, 4096]).  No law that fails at infinities is used, so the finiteness half of the precondition is
  never opened.

  The three frames: the kernel's two are its generated frame certificates; the reference's is its run with the result dropped.
  The idealisation rewrote nothing, so `preserves` is `True`.
-/
import proofs.«427601_j31095563223127_3_alg».proof.Defs
import proofs.«427601_j31095563223127_3_alg».proof.Proof.Gen.Kernel
import proofs.«427601_j31095563223127_3_alg».proof.Proof.Gen.Kernel.Frame
import proofs.«427601_j31095563223127_3_alg».proof.Proof.Gen.KernelIdeal
import proofs.«427601_j31095563223127_3_alg».proof.Proof.Gen.KernelIdeal.Frame
import proofs.«427601_j31095563223127_3_alg».proof.Proof.Gen.ReferenceIdeal
import proofs.«427601_j31095563223127_3_alg».proof.Proof.Gen.Pre_finite_inputs
import proofs.«427601_j31095563223127_3_alg».proof.Proof.KernelRun
import proofs.«427601_j31095563223127_3_alg».proof.Proof.KernelValue
import proofs.«427601_j31095563223127_3_alg».proof.Proof.RefRun
import proofs.«427601_j31095563223127_3_alg».proof.Proof.RefValue
import proofs.«427601_j31095563223127_3_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- Both runs end at the specification's result of the (agreeing) arguments: the kernel's by its walk through @main, the
    reference's by its composed term; the precondition puts every code in range for both. -/
theorem algebraic : Cert.algebraic_KernelIdeal_ReferenceIdeal := by
  intro m ρ m' ρ' hpre hagree
  have hr : ∀ c : Dev Cert.KernelIdeal.nD, Cert.Nf4.InRange
      (m ((c.tc : Thread Cert.KernelIdeal.nD Cert.KernelIdeal.τ).loc Cert.KernelIdeal.main_arg1)) :=
    fun c => Cert.Nf4.PreDecode.inRange_of_pre _ _ _ (hpre c)
  refine ⟨fun c => Cert.Nf4.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.result_eq m ρ c (hr c)), (h c).2⟩)
      (Cert.KernelIdeal.Run.run (F := Ideal) m ρ)
  · refine (θ_run Cert.ReferenceIdeal.defs _ _).mono (fun r h c => ⟨?_, (h c).2⟩)
      (Cert.ReferenceIdeal.Run.run (F := Ideal) m' ρ')
    rw [(h c).1, (hagree c).1, (hagree c).2.1, (hagree c).2.2]
    exact Cert.ReferenceIdeal.RefValue.term_eq _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
